-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1 : Shape := ⟨3, ![8, 2048, 1]⟩
abbrev S8x8192x1 : Shape := ⟨3, ![8, 8192, 1]⟩
abbrev S8x8192x64 : Shape := ⟨3, ![8, 8192, 64]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel

variable [Facts]

def fn {F : FTy → Type} [FloatOps F] (main_arg0 : IVec S8x2048x1 32) (main_arg1 : IVec S8x8192x1 32) (main_arg2 : FVec F S8x8192x64 .f32) : IVec S_ 1 :=
  let main_v0 : FVec F S8x8192x64 .f32 := Host.absf main_arg2
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  main_v3
-- ==== Kernel.lean ====
abbrev S8x2048x1 : Shape := ⟨3, ![8, 2048, 1]⟩
abbrev S8x8192x1 : Shape := ⟨3, ![8, 8192, 1]⟩
abbrev S8x8192x64 : Shape := ⟨3, ![8, 8192, 64]⟩
abbrev S8x1x8192 : Shape := ⟨3, ![8, 1, 8192]⟩
abbrev S8x2048x64 : Shape := ⟨3, ![8, 2048, 64]⟩
abbrev S1x2048x1 : Shape := ⟨3, ![1, 2048, 1]⟩
abbrev S1x1x512 : Shape := ⟨3, ![1, 1, 512]⟩
abbrev S1x512x64 : Shape := ⟨3, ![1, 512, 64]⟩
abbrev S1x2048x64 : Shape := ⟨3, ![1, 2048, 64]⟩
abbrev S2048x64 : Shape := ⟨2, ![2048, 64]⟩
abbrev S2048x1 : Shape := ⟨2, ![2048, 1]⟩
abbrev S1x512 : Shape := ⟨2, ![1, 512]⟩
abbrev S2048x512 : Shape := ⟨2, ![2048, 512]⟩
abbrev S2048 : Shape := ⟨1, ![2048]⟩
abbrev S512x64 : Shape := ⟨2, ![512, 64]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x1, .i32⟩
  | .hbm, ⟨1, _⟩ => ⟨S8x8192x1, .i32⟩
  | .hbm, ⟨2, _⟩ => ⟨S8x8192x64, .f32⟩
  | .hbm, ⟨3, _⟩ => ⟨S8x1x8192, .i32⟩
  | .hbm, ⟨4, _⟩ => ⟨S8x2048x64, .f32⟩
  | .local _ .vmem, ⟨0, _⟩ => ⟨S1x2048x1, .i32⟩
  | .local _ .vmem, ⟨1, _⟩ => ⟨S1x2048x1, .i32⟩
  | .local _ .vmem, ⟨2, _⟩ => ⟨S1x1x512, .i32⟩
  | .local _ .vmem, ⟨3, _⟩ => ⟨S1x1x512, .i32⟩
  | .local _ .vmem, ⟨4, _⟩ => ⟨S1x512x64, .f32⟩
  | .local _ .vmem, ⟨5, _⟩ => ⟨S1x512x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x64, .f32⟩
  | .local _ .vmem, ⟨9, _⟩ => ⟨S2048x1, .f32⟩
  | _, _ => ⟨S8x2048x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x8192x1_S8x1x8192_0_2_1 : S8x8192x1.Transposes [0, 2, 1] S8x1x8192
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S2048x1_S2048x512 : S2048x1.Broadcasts S2048x512
  broadcasts_S1x512_S2048x512 : S1x512.Broadcasts S2048x512
  natLt_1_32 : 1 < 32
  reduces_S2048x512_S2048 : S2048x512.Reduces [1] S2048
  shapeCasts_S2048_S2048x1 : S2048.ShapeCasts S2048x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  broadcasts_S2048x1_S2048x64 : S2048x1.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S8x2048x1.size a
  hwx0_0 : ∀ i : grid0.Coords, EltTy.bits .i32 = 32 ∨ (Rect.block (s := S8x2048x1) S1x2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x8192.size a
  hwx0_1 : ∀ i : grid0.Coords, EltTy.bits .i32 = 32 ∨ (Rect.block (s := S8x1x8192) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x8192x64.size a
  hwx0_2 : ∀ i : grid0.Coords, EltTy.bits .f32 = 32 ∨ (Rect.block (s := S8x8192x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x2048x64.size a
  hwx0_3 : ∀ i : grid0.Coords, EltTy.bits .f32 = 32 ∨ (Rect.block (s := S8x2048x64) S1x2048x64.size (cc0_transform_3 i) (hinb0_3 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1 : Shape := ⟨3, ![8, 2048, 1]⟩
abbrev S8x8192x1 : Shape := ⟨3, ![8, 8192, 1]⟩
abbrev S8x8192x64 : Shape := ⟨3, ![8, 8192, 64]⟩
abbrev S8x2048 : Shape := ⟨2, ![8, 2048]⟩
abbrev S8x8192 : Shape := ⟨2, ![8, 8192]⟩
abbrev S8x1x8192 : Shape := ⟨3, ![8, 1, 8192]⟩
abbrev S8x2048x8192 : Shape := ⟨3, ![8, 2048, 8192]⟩
abbrev S8x2048x64 : Shape := ⟨3, ![8, 2048, 64]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x1, .i32⟩
  | .hbm, ⟨1, _⟩ => ⟨S8x8192x1, .i32⟩
  | .hbm, ⟨2, _⟩ => ⟨S8x8192x64, .f32⟩
  | .hbm, ⟨3, _⟩ => ⟨S8x2048, .i32⟩
  | .hbm, ⟨4, _⟩ => ⟨S8x8192, .i32⟩
  | .hbm, ⟨5, _⟩ => ⟨S8x2048x1, .i32⟩
  | .hbm, ⟨6, _⟩ => ⟨S8x1x8192, .i32⟩
  | .hbm, ⟨7, _⟩ => ⟨S8x2048x8192, .i32⟩
  | .hbm, ⟨8, _⟩ => ⟨S8x2048x8192, .i32⟩
  | .hbm, ⟨9, _⟩ => ⟨S8x2048x8192, .i1⟩
  | .hbm, ⟨10, _⟩ => ⟨S8x2048x8192, .f32⟩
  | .hbm, ⟨11, _⟩ => ⟨S8x2048x64, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x64, .f32⟩
  | .hbm, ⟨19, _⟩ => ⟨S8x2048x64, .f32⟩
  | _, _ => ⟨S8x2048x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S8x2048x1_S8x2048 : S8x2048x1.ShapeCasts S8x2048
  shapeCasts_S8x8192x1_S8x8192 : S8x8192x1.ShapeCasts S8x8192
  bcast_S8x2048_S8x2048x1_0_1 : S8x2048.BroadcastsInDim S8x2048x1 (![0, 1] : Fin 2 → Fin S8x2048x1.rank)
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  reducesTo_S8x2048x8192_S8x2048_d2 : S8x2048x8192.ReducesTo [2] S8x2048
  h_S_ : 0 < S_.numel
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  dot_S8x2048x8192_S8x8192x64_S8x2048x64_2_1_1_2_0_0_wf : DotDims.WF S8x2048x8192 S8x8192x64 S8x2048x64 [2] [1] [1] [2] [0] [0]

variable [Facts₀]

def dot_S8x2048x8192_S8x8192x64_S8x2048x64_2_1_1_2_0_0 : DotDims S8x2048x8192 S8x8192x64 S8x2048x64 where
  lhsContracting := [2]
  rhsContracting := [1]
  lhsNonContracting := [1]
  rhsNonContracting := [2]
  lhsBatch := [0]
  rhsBatch := [0]
  wf := dot_S8x2048x8192_S8x8192x64_S8x2048x64_2_1_1_2_0_0_wf

class Facts : Prop extends Facts₀ where

variable [Facts]
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.PoolSpec.lean ====
import Idealize.ShloMosaic.PureOps.Ideal
import Idealize.ShloMosaic.PureOps.Ideal.Laws
import Idealize.ShloMosaic.Lib.ValueIdx
import proofs.«150614_j1666447311241_1_alg».proof.Proof.LibBlockSum

/-!
  Mean pooling by matching indices, as one function of the three argument arrays.

  Target row `n` of batch `b` collects every source row `k` of that batch whose index word equals the target's:
  the result is the sum of the collected rows divided by a small constant plus the number of collected rows.
  Both sums run over all 8192 source rows; a source row counts 1 when the words are equal and 0 otherwise.
-/

noncomputable section

open scoped BigOperators

namespace Cert.PoolSpec

open Idealize.ShloMosaic Idealize.ShloMosaic.ValueIdx

/-- 1 when the two index words are equal, 0 when they are not. -/
def hit (a b : BitVec 32) : EReal := (((IntOp.cmpi .eq a b).toNat : ℝ) : EReal)

/-- A one-bit word widened with zeros and read as a signed integer is the bit. -/
theorem bit_toInt (c : BitVec 1) : (c.setWidth 32).toInt = (c.toNat : Int) := by
  revert c; decide

/-- The comparison bit widened to a word and converted as a signed integer is `hit`. -/
theorem hit_signed (a b : BitVec 32) :
    FloatOps.sitofp (F := Ideal) .f32 ((IntOp.cmpi .eq a b).setWidth 32) = hit a b := by
  show ((((IntOp.cmpi .eq a b).setWidth 32).toInt : ℝ) : EReal) = _
  rw [bit_toInt]
  unfold hit
  norm_cast

/-- The comparison bit converted as an unsigned integer is `hit`. -/
theorem hit_unsigned (a b : BitVec 32) :
    FloatOps.uitofp (F := Ideal) .f32 (IntOp.cmpi .eq a b) = hit a b := rfl

abbrev ST : Shape := ⟨3, ![8, 2048, 1]⟩
abbrev SS : Shape := ⟨3, ![8, 8192, 1]⟩
abbrev SA : Shape := ⟨3, ![8, 8192, 64]⟩
abbrev SO : Shape := ⟨3, ![8, 2048, 64]⟩

/-- The small constant added to the count. -/
abbrev tiny : EReal := Ideal.ofBits .f32 0x2EDBE6FF#32

/-- The sum of the source rows of batch `b` that target `n` collects, in column `q`. -/
def total (it : ST.Idx → BitVec 32) (is : SS.Idx → BitVec 32) (arr : SA.Idx → EReal)
    (b : Fin 8) (n : Fin 2048) (q : Fin 64) : EReal :=
  ∑ k : Fin 8192, hit (it (ix3 b n (0 : Fin 1))) (is (ix3 b k (0 : Fin 1))) * arr (ix3 b k q)

/-- How many source rows of batch `b` target `n` collects. -/
def count (it : ST.Idx → BitVec 32) (is : SS.Idx → BitVec 32) (b : Fin 8) (n : Fin 2048) : EReal :=
  ∑ k : Fin 8192, hit (it (ix3 b n (0 : Fin 1))) (is (ix3 b k (0 : Fin 1)))

/-- The pooled array. -/
def pool (it : ST.Idx → BitVec 32) (is : SS.Idx → BitVec 32) (arr : SA.Idx → EReal) : SO.Idx → EReal :=
  fun i => Ideal.div (total it is arr (i 0) (i 1) (i 2)) (tiny + count it is (i 0) (i 1))

/-- A sum over the 8192 source rows, taken 512 rows at a time over 16 consecutive blocks. -/
theorem sum_by_blocks (f : ℕ → EReal) :
    ∑ s ∈ Finset.range 16, ∑ j : Fin 512, f (512 * s + j.val) = ∑ k : Fin 8192, f k.val :=
  BlockSum.sum_blocks 512 16 f

end Cert.PoolSpec

end
-- ==== Proof.PoolPieces.lean ====
import proofs.«150614_j1666447311241_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-! What one grid point leaves in the two running totals and, at the last point of a batch, in the output block,
as the body's own arithmetic of the blocks it loaded and of the totals the point before left.  At the first point of
a batch the totals are first set to zero, so the arithmetic is applied to the zero blocks. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point adds its partial product to the running numerator. -/
theorem num_B (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : ¬cond0_0 i) (hc1 : ¬cond0_1 i) (x0 : Vec F S1x2048x1 .i32) (x1 : Vec F S1x1x512 .i32) (x2 : Vec F S1x512x64 .f32) (xs0 : Vec F S2048x64 .f32) (xs1 : Vec F S2048x1 .f32) :
    sout0_B_0 c i a2 h2 a3 h3 a4 h4 a5 h5 a6 h6 a7 h7 hc0 hc1 x0 x1 x2 xs0 xs1 = k0_pay6 x0 x1 x2 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  rw [View.canon_unit_zero hz2]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2]

/-- A middle point adds its partial count to the running denominator. -/
theorem den_B (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : ¬cond0_0 i) (hc1 : ¬cond0_1 i) (x0 : Vec F S1x2048x1 .i32) (x1 : Vec F S1x1x512 .i32) (x2 : Vec F S1x512x64 .f32) (xs0 : Vec F S2048x64 .f32) (xs1 : Vec F S2048x1 .f32) :
    sout0_B_1 c i a2 h2 a3 h3 a4 h4 a5 h5 a6 h6 a7 h7 hc0 hc1 x0 x1 x2 xs0 xs1 = k0_pay5 x0 x1 xs1 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  rw [View.canon_unit_zero hz2]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2]

/-- The last point of a batch adds to the numerator as a middle point does. -/
theorem num_C (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : ¬cond0_0 i) (hc1 : cond0_1 i) (x0 : Vec F S1x2048x1 .i32) (x1 : Vec F S1x1x512 .i32) (x2 : Vec F S1x512x64 .f32) (xs0 : Vec F S2048x64 .f32) (xs1 : Vec F S2048x1 .f32) :
    sout0_C_0 c i a2 h2 a3 h3 a4 h4 a5 h5 a6 h6 a7 h7 hc0 hc1 x0 x1 x2 xs0 xs1 = k0_pay6 x0 x1 x2 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2]

/-- The last point of a batch adds to the denominator as a middle point does. -/
theorem den_C (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : ¬cond0_0 i) (hc1 : cond0_1 i) (x0 : Vec F S1x2048x1 .i32) (x1 : Vec F S1x1x512 .i32) (x2 : Vec F S1x512x64 .f32) (xs0 : Vec F S2048x64 .f32) (xs1 : Vec F S2048x1 .f32) :
    sout0_C_1 c i a2 h2 a3 h3 a4 h4 a5 h5 a6 h6 a7 h7 hc0 hc1 x0 x1 x2 xs0 xs1 = k0_pay5 x0 x1 xs1 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz2]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2]

/-- The last point of a batch then writes the quotient of the two updated totals. -/
theorem out_C (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : ¬cond0_0 i) (hc1 : cond0_1 i) (x0 : Vec F S1x2048x1 .i32) (x1 : Vec F S1x1x512 .i32) (x2 : Vec F S1x512x64 .f32) (xs0 : Vec F S2048x64 .f32) (xs1 : Vec F S2048x1 .f32) :
    out0_C_3 c i a2 h2 a3 h3 a4 h4 a5 h5 a6 h6 a7 h7 hc0 hc1 x0 x1 x2 xs0 xs1 = k0_pay1 (k0_pay6 x0 x1 x2 xs0) (k0_pay5 x0 x1 xs1) := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz3]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2, View.readCov_unit_zero (S := S2048x64) _ hz2, View.readCov_unit_zero (S := S2048x1) _ hz2]

/-- The first point of a batch sets the numerator to zero and adds its partial product. -/
theorem num_A (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : cond0_0 i) (hc1 : ¬cond0_1 i) (x0 : Vec F S1x2048x1 .i32) (x1 : Vec F S1x1x512 .i32) (x2 : Vec F S1x512x64 .f32) :
    sout0_A_0 c i a2 h2 a3 h3 a4 h4 a5 h5 a6 h6 a7 h7 hc0 hc1 x0 x1 x2 = k0_pay6 x0 x1 x2 k0_pay2 := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S2048x64) hz2]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2, View.readCov_unit_zero (S := S2048x64) _ hz2, View.readCov_unit_zero (S := S2048x1) _ hz2]

/-- The first point of a batch sets the denominator to zero and adds its partial count. -/
theorem den_A (c : Dev nD) (i : grid0.Coords) (a2 : Memref sig .tc .vmem S1x2048x1 .i32) (h2 : a2.IsWhole) (a3 : Memref sig .tc .vmem S1x1x512 .i32) (h3 : a3.IsWhole) (a4 : Memref sig .tc .vmem S1x512x64 .f32) (h4 : a4.IsWhole) (a5 : Memref sig .tc .vmem S1x2048x64 .f32) (h5 : a5.IsWhole) (a6 : Memref sig .tc .vmem S2048x64 .f32) (h6 : a6.IsWhole) (a7 : Memref sig .tc .vmem S2048x1 .f32) (h7 : a7.IsWhole) (hc0 : cond0_0 i) (hc1 : ¬cond0_1 i) (x0 : Vec F S1x2048x1 .i32) (x1 : Vec F S1x1x512 .i32) (x2 : Vec F S1x512x64 .f32) :
    sout0_A_1 c i a2 h2 a3 h3 a4 h4 a5 h5 a6 h6 a7 h7 hc0 hc1 x0 x1 x2 = k0_pay5 x0 x1 k0_pay3 := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S2048x1) hz2]
  simp only [View.readAt_eq_ld, h2.read_unread, h3.read_unread, h4.read_unread, h6.read_unread, h7.read_unread, View.ld_unit_zero (S := S1x2048x1) hz3, View.ld_unit_zero (S := S1x1x512) hz3, View.ld_unit_zero (S := S1x512x64) hz3, View.ld_unit_zero (S := S2048x64) hz2, View.ld_unit_zero (S := S2048x1) hz2, View.readCov_unit_zero (S := S2048x64) _ hz2, View.readCov_unit_zero (S := S2048x1) _ hz2]

end Cert.KernelIdeal.Pieces

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«150614_j1666447311241_1_alg».proof.Proof.LibLayoutCol
import proofs.«150614_j1666447311241_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.PoolPayload.lean ====
import proofs.«150614_j1666447311241_1_alg».proof.Proof.Gen.KernelIdeal.Skeleton
import proofs.«150614_j1666447311241_1_alg».proof.Proof.PoolSpec
import proofs.«150614_j1666447311241_1_alg».proof.Proof.LibMatmul
import proofs.«150614_j1666447311241_1_alg».proof.Proof.LibColSum
import Idealize.ShloMosaic.Lib.Pipeline.Value
import Idealize.ShloMosaic.Lib.ValueIdx
import Idealize.ShloMosaic.PureOps.Ideal.Laws

/-!
  The body's arithmetic at one entry, over the extended reals.

  With the target words of a batch as a block `x0` [1, 2048, 1], 512 source words as a block `x1` [1, 1, 512] and
  their 512 source rows as a block `x2` [1, 512, 64]:
  the numerator's update at (n, q) adds the sum over the 512 rows of hit · row entry;
  the denominator's update at (n, 0) adds the number of hits among the 512 words;
  the output at (0, n, q) is the numerator at (n, q) divided by the small constant plus the denominator at (n, 0).
-/

noncomputable section

open scoped BigOperators

namespace Cert.KernelIdeal.Payload

open Cert.KernelIdeal Cert.KernelIdeal.Gen Idealize.ShloMosaic Idealize.ShloMosaic.ValueIdx Cert.PoolSpec

/-- The 0/1 matrix of hits at (n, j): the target word of row n against source word j. -/
theorem mask_apply (x0 : Vec Ideal S1x2048x1 .i32) (x1 : Vec Ideal S1x1x512 .i32) (n : Fin 2048) (j : Fin 512) :
    k0_pay4 (F := Ideal) x0 x1 (ix2 n j) = hit (x0 (ix3 (0 : Fin 1) n (0 : Fin 1))) (x1 (ix3 (0 : Fin 1) (0 : Fin 1) j)) := by
  unfold k0_pay4
  rw [sitofp_apply, extui_apply]
  show FloatOps.sitofp (F := Ideal) .f32 ((IntOp.cmpi .eq _ _).setWidth 32) = _
  rw [hit_signed]
  congr 1
  · refine (Cert.Lib.ColSum.bcastColMat_apply _ broadcasts_S2048x1_S2048x512 n j).trans ?_
    exact shapeCast_dropUnit_apply ![2048, 1] x0 shapeCasts_S1x2048x1_S2048x1 (ix2 n (0 : Fin 1)) |>.trans
      (congrArg x0 (funext fun a => by match a with | ⟨0, _⟩ => rfl | ⟨1, _⟩ => rfl | ⟨2, _⟩ => rfl))
  · refine (broadcastTo_apply _ broadcasts_S1x512_S2048x512 (ix2 n j) (ix2 (0 : Fin 1) j) (fun a => by
      match a with
      | ⟨0, _⟩ => simp
      | ⟨1, _⟩ => show j.val = if (512 : Nat) = 1 then 0 else j.val; rw [if_neg (by decide)])).trans ?_
    exact shapeCast_dropUnit_apply ![1, 512] x1 shapeCasts_S1x1x512_S1x512 (ix2 (0 : Fin 1) j) |>.trans
      (congrArg x1 (funext fun a => by match a with | ⟨0, _⟩ => rfl | ⟨1, _⟩ => rfl | ⟨2, _⟩ => rfl))

/-- The partial product a point adds to the numerator at (n, q). -/
def part (x0 : Vec Ideal S1x2048x1 .i32) (x1 : Vec Ideal S1x1x512 .i32) (x2 : Vec Ideal S1x512x64 .f32)
    (n : Fin 2048) (q : Fin 64) : EReal :=
  ∑ j : Fin 512, hit (x0 (ix3 (0 : Fin 1) n (0 : Fin 1))) (x1 (ix3 (0 : Fin 1) (0 : Fin 1) j)) * x2 (ix3 (0 : Fin 1) j q)

/-- The partial count a point adds to the denominator at row n. -/
def hits (x0 : Vec Ideal S1x2048x1 .i32) (x1 : Vec Ideal S1x1x512 .i32) (n : Fin 2048) : EReal :=
  ∑ j : Fin 512, hit (x0 (ix3 (0 : Fin 1) n (0 : Fin 1))) (x1 (ix3 (0 : Fin 1) (0 : Fin 1) j))

/-- The numerator's update at an entry. -/
theorem num_apply (x0 : Vec Ideal S1x2048x1 .i32) (x1 : Vec Ideal S1x1x512 .i32) (x2 : Vec Ideal S1x512x64 .f32)
    (v : Vec Ideal S2048x64 .f32) (n : Fin 2048) (q : Fin 64) :
    k0_pay6 (F := Ideal) x0 x1 x2 v (ix2 n q) = v (ix2 n q) + part x0 x1 x2 n q := by
  unfold k0_pay6
  rw [shapeCast_self, addf_apply]
  refine congrArg (v (ix2 n q) + ·) ?_
  refine (Cert.Lib.Matmul.matmul_zero_apply (A := 2048) (K := 512) (C := 64) none _ _ n q).trans ?_
  unfold part
  refine Finset.sum_congr rfl fun j _ => ?_
  rw [truncf_apply, truncf_apply, mask_apply]
  refine congrArg (_ * ·) ?_
  exact shapeCast_dropUnit_apply ![512, 64] x2 shapeCasts_S1x512x64_S512x64 (ix2 j q) |>.trans
    (congrArg x2 (funext fun a => by match a with | ⟨0, _⟩ => rfl | ⟨1, _⟩ => rfl | ⟨2, _⟩ => rfl))

/-- The denominator's update at an entry of its one column. -/
theorem den_apply (x0 : Vec Ideal S1x2048x1 .i32) (x1 : Vec Ideal S1x1x512 .i32)
    (v : Vec Ideal S2048x1 .f32) (n : Fin 2048) (z : Fin 1) :
    k0_pay5 (F := Ideal) x0 x1 v (ix2 n z) = v (ix2 n z) + hits x0 x1 n := by
  unfold k0_pay5
  rw [shapeCast_self, addf_apply]
  refine congrArg (v (ix2 n z) + ·) ?_
  refine (Cert.Lib.ColSum.rowSumCol_apply (A := 2048) (K := 512) _ reduces_S2048x512_S2048 (.inl rfl) rfl shapeCasts_S2048_S2048x1 n z).trans ?_
  unfold hits
  exact Finset.sum_congr rfl fun j _ => mask_apply x0 x1 n j

/-- The output block at an entry: the numerator over the small constant plus the denominator. -/
theorem out_apply (a : Vec Ideal S2048x64 .f32) (d : Vec Ideal S2048x1 .f32) (z : Fin 1) (n : Fin 2048) (q : Fin 64) :
    k0_pay1 (F := Ideal) a d (ix3 z n q) = Ideal.div (a (ix2 n q)) (tiny + d (ix2 n (0 : Fin 1))) := by
  unfold k0_pay1
  refine (shapeCast_addUnit_apply ![2048, 64] _ shapeCasts_S2048x64_S1x2048x64 (ix3 z n q)).trans ?_
  rw [show (fun a : Fin 2 => (ix3 z n q : S1x2048x64.Idx) a.succ) = ix2 n q from
    funext fun a => by match a with | ⟨0, _⟩ => rfl | ⟨1, _⟩ => rfl]
  rw [divf_apply]
  refine congrArg (Ideal.div (a (ix2 n q)) ·) ?_
  refine (Cert.Lib.ColSum.bcastColMat_apply _ broadcasts_S2048x1_S2048x64 n q).trans ?_
  rfl

/-- The zero block the numerator is reset to. -/
theorem zero_num_apply (i : S2048x64.Idx) : k0_pay2 (F := Ideal) i = 0 := by
  unfold k0_pay2
  rw [shapeCast_self]
  exact Ideal.ofBits_zero_f32

/-- The zero block the denominator is reset to. -/
theorem zero_den_apply (i : S2048x1.Idx) : k0_pay3 (F := Ideal) i = 0 := by
  unfold k0_pay3
  rw [shapeCast_self]
  exact Ideal.ofBits_zero_f32

end Cert.KernelIdeal.Payload

end
-- ==== Proof.PoolFold.lean ====
import proofs.«150614_j1666447311241_1_alg».proof.Proof.Gen.KernelIdeal.Value
import proofs.«150614_j1666447311241_1_alg».proof.Proof.PoolPieces
import proofs.«150614_j1666447311241_1_alg».proof.Proof.PoolPayload
import Idealize.ShloMosaic.Lib.Pipeline.Value
import Idealize.ShloMosaic.Lib.StableHlo.Run

/-!
  The two running totals over a batch's 16 grid points, at the extended reals.

  Point t = 16·b + s works on batch b and on source rows 512·s … 512·s + 511.  The numerator is set to zero at s = 0
  and every point adds its partial product; the denominator likewise with its partial count.  So after point t each
  total at an entry is zero plus the sum, over the points 16·b … t, of that point's addend; the last point of the batch
  (s = 15) writes numerator / (small constant + denominator) into the output block.
-/

noncomputable section

open scoped BigOperators

namespace Cert.KernelIdeal.PoolValue

open Cert.KernelIdeal Cert.KernelIdeal.Gen Cert.KernelIdeal.Value Idealize.ShloMosaic Idealize.ShloMosaic.TcCoe Idealize.SL.Sem
open Idealize.ShloMosaic.ValueIdx Cert.PoolSpec Cert.KernelIdeal.Payload
open Idealize.ShloMosaic.Pipeline (Dat)

variable (m : (ℓ : Loc nD τ sig) → Buf (Elt Ideal) ℓ)

/-- The target words, the 512 source words and the 512 source rows that point t loads. -/
abbrev tblk (c : Dev nD) (t : Fin cfg0.N) : Vec Ideal S1x2048x1 .i32 := iblk m c 0 t
abbrev sblk (c : Dev nD) (t : Fin cfg0.N) : Vec Ideal S1x1x512 .i32 := iblk m c 1 t
abbrev rblk (c : Dev nD) (t : Fin cfg0.N) : Vec Ideal S1x512x64 .f32 := iblk m c 2 t

/-- What point n leaves in the numerator over what the point before left: the update applied to zero at the first
    point of a batch, to the previous total elsewhere. -/
theorem num_step (c : Dev nD) (n : ℕ) (hn : n < cfg0.N) (acc : Vec Ideal S2048x64 .f32) :
    scAt0_0 m c n hn acc
      = k0_pay6 (tblk m c ⟨n, hn⟩) (sblk m c ⟨n, hn⟩) (rblk m c ⟨n, hn⟩) (if n % 16 = 0 then k0_pay2 (F := Ideal) else acc) := by
  unfold scAt0_0
  by_cases h0 : n % 16 = 0
  · have h1 : ¬n % 16 = 15 := by omega
    rw [dif_pos h0, dif_neg h1, if_pos h0]
    exact Pieces.num_A (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))
  · rw [dif_neg h0, if_neg h0]
    by_cases h1 : n % 16 = 15
    · rw [dif_pos h1]
      exact Pieces.num_C (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) acc (outsAt0 m c ((⟨n, hn⟩ : Fin cfg0.N).val - 1) (Nat.lt_of_le_of_lt (Nat.sub_le _ _) (⟨n, hn⟩ : Fin cfg0.N).isLt)).2.2
    · rw [dif_neg h1]
      exact Pieces.num_B (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) acc (outsAt0 m c ((⟨n, hn⟩ : Fin cfg0.N).val - 1) (Nat.lt_of_le_of_lt (Nat.sub_le _ _) (⟨n, hn⟩ : Fin cfg0.N).isLt)).2.2

/-- The same for the denominator. -/
theorem den_step (c : Dev nD) (n : ℕ) (hn : n < cfg0.N) (acc : Vec Ideal S2048x1 .f32) :
    scAt0_1 m c n hn acc
      = k0_pay5 (tblk m c ⟨n, hn⟩) (sblk m c ⟨n, hn⟩) (if n % 16 = 0 then k0_pay3 (F := Ideal) else acc) := by
  unfold scAt0_1
  by_cases h0 : n % 16 = 0
  · have h1 : ¬n % 16 = 15 := by omega
    rw [dif_pos h0, dif_neg h1, if_pos h0]
    exact Pieces.den_A (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))
  · rw [dif_neg h0, if_neg h0]
    by_cases h1 : n % 16 = 15
    · rw [dif_pos h1]
      exact Pieces.den_C (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c ((⟨n, hn⟩ : Fin cfg0.N).val - 1) (Nat.lt_of_le_of_lt (Nat.sub_le _ _) (⟨n, hn⟩ : Fin cfg0.N).isLt)).2.1 acc
    · rw [dif_neg h1]
      exact Pieces.den_B (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c ((⟨n, hn⟩ : Fin cfg0.N).val - 1) (Nat.lt_of_le_of_lt (Nat.sub_le _ _) (⟨n, hn⟩ : Fin cfg0.N).isLt)).2.1 acc

/-- Point p's addend to the numerator at an entry (zero past the grid, where it is never used). -/
def numAdd (c : Dev nD) (p : ℕ) (i : S2048x64.Idx) : EReal :=
  if hp : p < cfg0.N then part (tblk m c ⟨p, hp⟩) (sblk m c ⟨p, hp⟩) (rblk m c ⟨p, hp⟩) (i 0) (i 1) else 0

/-- Point p's addend to the denominator at an entry. -/
def denAdd (c : Dev nD) (p : ℕ) (i : S2048x1.Idx) : EReal :=
  if hp : p < cfg0.N then hits (tblk m c ⟨p, hp⟩) (sblk m c ⟨p, hp⟩) (i 0) else 0

/-- The numerator after point t: zero plus the addends of the batch's points up to t. -/
theorem num_at (c : Dev nD) (t : Fin cfg0.N) (i : S2048x64.Idx) :
    (outsAt0 m c t.val t.isLt).2.1 i = 0 + ∑ s ∈ Finset.range (t.val % 16 + 1), numAdd m c (16 * (t.val / 16) + s) i := by
  rw [soutsAt0_0_eq m c t]
  refine Pipeline.accAt_add_apply (fun n h => scAt0_0 m c n h (VS0_0.read (Elt Ideal) VS0_0.junk)) (scAt0_0 m c)
    (fun _ => 0) (numAdd m c) (16 * (t.val / 16)) 15 (fun h i => ?_) (fun n h acc i hlt hle => ?_) (t.val % 16) (by omega) _ i
  · obtain ⟨r, q, rfl⟩ : ∃ (r : Fin 2048) (q : Fin 64), i = ix2 r q := ⟨i 0, i 1, eq_ix2 i⟩
    rw [num_step, if_pos (Nat.mul_mod_right 16 _), num_apply, zero_num_apply]
    unfold numAdd
    rw [dif_pos h]
  · obtain ⟨r, q, rfl⟩ : ∃ (r : Fin 2048) (q : Fin 64), i = ix2 r q := ⟨i 0, i 1, eq_ix2 i⟩
    rw [num_step, if_neg (by omega), num_apply]
    unfold numAdd
    rw [dif_pos h]

/-- The denominator after point t: zero plus the addends of the batch's points up to t. -/
theorem den_at (c : Dev nD) (t : Fin cfg0.N) (i : S2048x1.Idx) :
    (outsAt0 m c t.val t.isLt).2.2 i = 0 + ∑ s ∈ Finset.range (t.val % 16 + 1), denAdd m c (16 * (t.val / 16) + s) i := by
  rw [soutsAt0_1_eq m c t]
  refine Pipeline.accAt_add_apply (fun n h => scAt0_1 m c n h (VS0_1.read (Elt Ideal) VS0_1.junk)) (scAt0_1 m c)
    (fun _ => 0) (denAdd m c) (16 * (t.val / 16)) 15 (fun h i => ?_) (fun n h acc i hlt hle => ?_) (t.val % 16) (by omega) _ i
  · obtain ⟨r, z, rfl⟩ : ∃ (r : Fin 2048) (z : Fin 1), i = ix2 r z := ⟨i 0, i 1, eq_ix2 i⟩
    rw [den_step, if_pos (Nat.mul_mod_right 16 _), den_apply, zero_den_apply]
    unfold denAdd
    rw [dif_pos h]
  · obtain ⟨r, z, rfl⟩ : ∃ (r : Fin 2048) (z : Fin 1), i = ix2 r z := ⟨i 0, i 1, eq_ix2 i⟩
    rw [den_step, if_neg (by omega), den_apply]
    unfold denAdd
    rw [dif_pos h]

/-- At the last point of a batch the output block is the quotient of the two totals that point leaves. -/
theorem out_at (c : Dev nD) (t : Fin cfg0.N) (h1 : t.val % 16 = 15) :
    (outsAt0 m c t.val t.isLt).1 = k0_pay1 (outsAt0 m c t.val t.isLt).2.1 (outsAt0 m c t.val t.isLt).2.2 := by
  have h0 : ¬t.val % 16 = 0 := by omega
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
    Pieces.num_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
    Pieces.den_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2]

end Cert.KernelIdeal.PoolValue

end
-- ==== Proof.PoolKernel.lean ====
import proofs.«150614_j1666447311241_1_alg».proof.Proof.PoolFold
import proofs.«150614_j1666447311241_1_alg».proof.Proof.PoolSpec
import Idealize.ShloMosaic.Lib.Pipeline.Value
import Idealize.ShloMosaic.Lib.StableHlo.Run

/-!
  The kernel's result array is the pooled array of its three arguments.

  Point t = 16·b + s loads the target words of batch b, the source words 512·s … 512·s + 511 of batch b (from the
  transposed copy of the source-index array the program makes first) and the matching source rows.  So the addends of
  the batch's 16 points are the 16 consecutive blocks of 512 terms of the sums over all 8192 source rows, and the
  block the last point of batch b writes back is batch b of the pooled array.  The eight write-backs cover the array.
-/

noncomputable section

open scoped BigOperators

namespace Cert.KernelIdeal.PoolValue

open Cert.KernelIdeal Cert.KernelIdeal.Gen Cert.KernelIdeal.Value Idealize.ShloMosaic Idealize.ShloMosaic.TcCoe Idealize.SL.Sem
open Idealize.ShloMosaic.ValueIdx Cert.PoolSpec Cert.KernelIdeal.Payload
open Idealize.ShloMosaic.Pipeline (Dat)

variable (m : (ℓ : Loc nD τ sig) → Buf (Elt Ideal) ℓ) (ρ : Dev nD → PrngReg)

/-- The three argument arrays. -/
abbrev tgt (c : Dev nD) : S8x2048x1.Idx → BitVec 32 := m ((c : Thread nD τ).loc main_arg0)
abbrev src (c : Dev nD) : S8x8192x1.Idx → BitVec 32 := m ((c : Thread nD τ).loc main_arg1)
abbrev rows (c : Dev nD) : S8x8192x64.Idx → EReal := m ((c : Thread nD τ).loc main_arg2)

/-- Where each window's block sits at point t: batch t / 16 on axis 0; the source windows at block t % 16 of the
    source axis. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- The array the source-word window reads is the transposed source-index argument. -/
theorem srcT (c : Dev nD) : (V m c main_v0 : S8x1x8192.Idx → BitVec 32)
    = transpose S8x1x8192 [0, 2, 1] (src m c) transposes_S8x8192x1_S8x1x8192_0_2_1 := by
  dsimp only [Gen.V, Gen.hostOps0]; after_results

/-- The target block of point t is the target words of its batch. -/
theorem tblk_apply (c : Dev nD) (t : Fin cfg0.N) (b : Fin 8) (hb : b.val = t.val / 16) (n : Fin 2048) :
    tblk m c t (ix3 (0 : Fin 1) n (0 : Fin 1)) = tgt m c (ix3 b n (0 : Fin 1)) := by
  obtain ⟨e0, e1, e2, -⟩ := idx_facts t
  show V m c main_arg0 (((cfg0.win 0).blk t).view.emb (ix3 (0 : Fin 1) n (0 : Fin 1))) = _
  rw [V_main_arg0 m c]
  refine congrArg (m ((c : Thread nD τ).loc main_arg0)) (funext fun a => Fin.ext ?_)
  match a with
  | ⟨0, _⟩ => show win0_0.index t (0 : Fin 3) * 1 + 1 * 0 = b.val; omega
  | ⟨1, _⟩ => show win0_0.index t (1 : Fin 3) * 2048 + 1 * n.val = n.val; omega
  | ⟨2, _⟩ => show win0_0.index t (2 : Fin 3) * 1 + 1 * 0 = 0; omega

/-- The source-word block of point t is source words 512·(t % 16) … of its batch. -/
theorem sblk_apply (c : Dev nD) (t : Fin cfg0.N) (b : Fin 8) (hb : b.val = t.val / 16) (j : Fin 512) (k : Fin 8192)
    (hk : k.val = 512 * (t.val % 16) + j.val) :
    sblk m c t (ix3 (0 : Fin 1) (0 : Fin 1) j) = src m c (ix3 b k (0 : Fin 1)) := by
  obtain ⟨-, -, -, e0, e1, e2, -⟩ := idx_facts t
  show V m c main_v0 (((cfg0.win 1).blk t).view.emb (ix3 (0 : Fin 1) (0 : Fin 1) j)) = _
  rw [srcT m c]
  refine transpose_apply [0, 2, 1] (src m c) transposes_S8x8192x1_S8x1x8192_0_2_1 _ (ix3 b k (0 : Fin 1)) (fun a => ?_)
  match a with
  | ⟨0, _⟩ => show b.val = win0_1.index t (0 : Fin 3) * 1 + 1 * 0; omega
  | ⟨1, _⟩ => show 0 = win0_1.index t (1 : Fin 3) * 1 + 1 * 0; omega
  | ⟨2, _⟩ => show k.val = win0_1.index t (2 : Fin 3) * 512 + 1 * j.val; omega

/-- The source-row block of point t is source rows 512·(t % 16) … of its batch. -/
theorem rblk_apply (c : Dev nD) (t : Fin cfg0.N) (b : Fin 8) (hb : b.val = t.val / 16) (j : Fin 512) (k : Fin 8192)
    (hk : k.val = 512 * (t.val % 16) + j.val) (q : Fin 64) :
    rblk m c t (ix3 (0 : Fin 1) j q) = rows m c (ix3 b k q) := by
  obtain ⟨-, -, -, -, -, -, e0, e1, e2, -⟩ := idx_facts t
  show V m c main_arg2 (((cfg0.win 2).blk t).view.emb (ix3 (0 : Fin 1) j q)) = _
  rw [V_main_arg2 m c]
  refine congrArg (m ((c : Thread nD τ).loc main_arg2)) (funext fun a => Fin.ext ?_)
  match a with
  | ⟨0, _⟩ => show win0_2.index t (0 : Fin 3) * 1 + 1 * 0 = b.val; omega
  | ⟨1, _⟩ => show win0_2.index t (1 : Fin 3) * 512 + 1 * j.val = k.val; omega
  | ⟨2, _⟩ => show win0_2.index t (2 : Fin 3) * 64 + 1 * q.val = q.val; omega

/-- Term k of the numerator's sum at (b, n, q), as a function of every natural (zero past the 8192 rows). -/
def numTerm (c : Dev nD) (b : Fin 8) (n : Fin 2048) (q : Fin 64) (k : ℕ) : EReal :=
  if hk : k < 8192 then hit (tgt m c (ix3 b n (0 : Fin 1))) (src m c (ix3 b ⟨k, hk⟩ (0 : Fin 1))) * rows m c (ix3 b ⟨k, hk⟩ q) else 0

/-- Term k of the denominator's sum at (b, n). -/
def denTerm (c : Dev nD) (b : Fin 8) (n : Fin 2048) (k : ℕ) : EReal :=
  if hk : k < 8192 then hit (tgt m c (ix3 b n (0 : Fin 1))) (src m c (ix3 b ⟨k, hk⟩ (0 : Fin 1))) else 0

/-- Point p's addend to the numerator is block p % 16 of the 8192 terms of batch p / 16. -/
theorem numAdd_eq (c : Dev nD) (p : ℕ) (hp : p < cfg0.N) (b : Fin 8) (hb : b.val = p / 16) (n : Fin 2048) (q : Fin 64) :
    numAdd m c p (ix2 n q) = ∑ j : Fin 512, numTerm m c b n q (512 * (p % 16) + j.val) := by
  unfold numAdd
  rw [dif_pos hp]
  show part (tblk m c ⟨p, hp⟩) (sblk m c ⟨p, hp⟩) (rblk m c ⟨p, hp⟩) n q = _
  unfold part
  refine Finset.sum_congr rfl fun j _ => ?_
  have hk : 512 * (p % 16) + j.val < 8192 := by have := j.isLt; omega
  unfold numTerm
  rw [dif_pos hk, tblk_apply m c ⟨p, hp⟩ b hb n, sblk_apply m c ⟨p, hp⟩ b hb j ⟨_, hk⟩ rfl,
    rblk_apply m c ⟨p, hp⟩ b hb j ⟨_, hk⟩ rfl q]

/-- Point p's addend to the denominator is block p % 16 of the 8192 terms of batch p / 16. -/
theorem denAdd_eq (c : Dev nD) (p : ℕ) (hp : p < cfg0.N) (b : Fin 8) (hb : b.val = p / 16) (n : Fin 2048) (z : Fin 1) :
    denAdd m c p (ix2 n z) = ∑ j : Fin 512, denTerm m c b n (512 * (p % 16) + j.val) := by
  unfold denAdd
  rw [dif_pos hp]
  show hits (tblk m c ⟨p, hp⟩) (sblk m c ⟨p, hp⟩) n = _
  unfold hits
  refine Finset.sum_congr rfl fun j _ => ?_
  have hk : 512 * (p % 16) + j.val < 8192 := by have := j.isLt; omega
  unfold denTerm
  rw [dif_pos hk, tblk_apply m c ⟨p, hp⟩ b hb n, sblk_apply m c ⟨p, hp⟩ b hb j ⟨_, hk⟩ rfl]

/-- After the last point of batch b the numerator holds the whole sum over the 8192 source rows. -/
theorem num_last (c : Dev nD) (t : Fin cfg0.N) (h1 : t.val % 16 = 15) (b : Fin 8) (hb : b.val = t.val / 16)
    (n : Fin 2048) (q : Fin 64) :
    (outsAt0 m c t.val t.isLt).2.1 (ix2 n q) = total (tgt m c) (src m c) (rows m c) b n q := by
  have hN : t.val < 128 := lt_of_lt_of_eq t.isLt (show cfg0.N = 128 from N_0)
  rw [num_at m c t (ix2 n q), zero_add, h1]
  rw [Finset.sum_congr rfl (fun s hs => by
    have hs' : s < 16 := Finset.mem_range.mp hs
    have hp : 16 * (t.val / 16) + s < cfg0.N :=
      lt_of_lt_of_eq (show 16 * (t.val / 16) + s < 128 by omega) (show cfg0.N = 128 from N_0).symm
    rw [numAdd_eq m c _ hp b (by omega) n q, show (16 * (t.val / 16) + s) % 16 = s from by omega] :
      ∀ s ∈ Finset.range (15 + 1), numAdd m c (16 * (t.val / 16) + s) (ix2 n q)
        = ∑ j : Fin 512, numTerm m c b n q (512 * s + j.val))]
  rw [sum_by_blocks]
  unfold total numTerm
  exact Finset.sum_congr rfl fun k _ => by rw [dif_pos k.isLt]

/-- After the last point of batch b the denominator holds the whole count over the 8192 source rows. -/
theorem den_last (c : Dev nD) (t : Fin cfg0.N) (h1 : t.val % 16 = 15) (b : Fin 8) (hb : b.val = t.val / 16)
    (n : Fin 2048) (z : Fin 1) :
    (outsAt0 m c t.val t.isLt).2.2 (ix2 n z) = Cert.PoolSpec.count (tgt m c) (src m c) b n := by
  have hN : t.val < 128 := lt_of_lt_of_eq t.isLt (show cfg0.N = 128 from N_0)
  rw [den_at m c t (ix2 n z), zero_add, h1]
  rw [Finset.sum_congr rfl (fun s hs => by
    have hs' : s < 16 := Finset.mem_range.mp hs
    have hp : 16 * (t.val / 16) + s < cfg0.N :=
      lt_of_lt_of_eq (show 16 * (t.val / 16) + s < 128 by omega) (show cfg0.N = 128 from N_0).symm
    rw [denAdd_eq m c _ hp b (by omega) n z, show (16 * (t.val / 16) + s) % 16 = s from by omega] :
      ∀ s ∈ Finset.range (15 + 1), denAdd m c (16 * (t.val / 16) + s) (ix2 n z)
        = ∑ j : Fin 512, denTerm m c b n (512 * s + j.val))]
  rw [sum_by_blocks]
  unfold Cert.PoolSpec.count denTerm
  exact Finset.sum_congr rfl fun k _ => by rw [dif_pos k.isLt]

/-- A block W [1, 2048, 64] that holds batch b of an array G is the block of G the output window has at a point
    of batch b. -/
theorem read_batch (G : S8x2048x64.Idx → EReal) (W : S1x2048x64.Idx → EReal) (t : Fin cfg0.N) (b : Fin 8)
    (hb : b.val = t.val / 16) (h : ∀ (n : Fin 2048) (q : Fin 64), W (ix3 (0 : Fin 1) n q) = G (ix3 b n q)) :
    W = ((cfg0.win 3).blk t).view.read (Elt Ideal) G := by
  obtain ⟨-, -, -, -, -, -, -, -, -, e0, e1, e2⟩ := idx_facts t
  funext y
  obtain ⟨z, n, q, rfl⟩ : ∃ (z : Fin 1) (n : Fin 2048) (q : Fin 64), y = ix3 z n q := ⟨y 0, y 1, y 2, eq_ix3 y⟩
  obtain rfl : z = 0 := Subsingleton.elim _ _
  rw [h n q]
  show G (ix3 b n q) = G (((cfg0.win 3).blk t).view.emb (ix3 (0 : Fin 1) n q))
  refine congrArg G (funext fun a => Fin.ext ?_)
  match a with
  | ⟨0, _⟩ => show b.val = win0_3.index t (0 : Fin 3) * 1 + 1 * 0; omega
  | ⟨1, _⟩ => show n.val = win0_3.index t (1 : Fin 3) * 2048 + 1 * n.val; omega
  | ⟨2, _⟩ => show q.val = win0_3.index t (2 : Fin 3) * 64 + 1 * q.val; omega

/-- What a writing point writes back is its batch of the pooled array. -/
theorem flushed_eq (c : Dev nD) (t : Fin cfg0.N) (hf : (cfg0.win 3).flush t = true) :
    (dats m 0 c).flushed 3 t = ((cfg0.win 3).blk t).view.read (Elt Ideal) (pool (tgt m c) (src m c) (rows m c)) := by
  have h1 : t.val % 16 = 15 := (flush0_3 t).mp hf
  have hN : t.val < 128 := lt_of_lt_of_eq t.isLt (show cfg0.N = 128 from N_0)
  rw [flushed3 m c t, out_at m c t h1]
  refine read_batch (pool (tgt m c) (src m c) (rows m c)) _ t ⟨t.val / 16, by omega⟩ rfl (fun n q => ?_)
  show k0_pay1 (F := Ideal) _ _ (ix3 (0 : Fin 1) n q) = _
  rw [out_apply, num_last m c t h1 ⟨t.val / 16, by omega⟩ rfl n q, den_last m c t h1 ⟨t.val / 16, by omega⟩ rfl n 0]
  rfl

/-- An index of the result array is in the output window's block at point t iff each coordinate is in the block's range. -/
theorem mem_blk (t : Fin cfg0.N) (i : S8x2048x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v1).slice (win0_3.rect t)).set ↔ _
  rw [View.set_slice_whole, Rect.mem_set_unit]
  exact Iff.rfl

/-- Every index of the result array is written by the last point of its batch. -/
theorem cover (i : S8x2048x64.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 64 := (i 2).isLt
  have hN : cfg0.N = 128 := N_0
  let t : Fin cfg0.N := ⟨16 * (i 0).val + 15, by omega⟩
  have htv : t.val = 16 * (i 0).val + 15 := rfl
  obtain ⟨-, -, -, -, -, -, -, -, -, e0, e1, e2⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- The result array after the run is the pooled array of the arguments. -/
theorem final (c : Dev nD) : (dats m 0 c).arrAt 3 cfg0.N = pool (tgt m c) (src m c) (rows m c) :=
  (dats m 0 c).arrAt_eq_of_cover 3 (pool (tgt m c) (src m c) (rows m c)) (fun t hf => flushed_eq m c t hf) cover

/-- The kernel's run: the result array at the pooled array of the arguments, the arguments unchanged. -/
theorem run : θ_run defs (onTc (τ := τ) (main (F := Ideal))) ⟨m, fun _ => 0, ρ⟩ fun r => ∀ c : Dev nD,
      r.2.mem ((c : Thread nD τ).loc main_v1) = pool (tgt m c) (src m c) (rows m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.PoolValue

end
-- ==== Proof.PoolRef.lean ====
import proofs.«150614_j1666447311241_1_alg».proof.Proof.Gen.ReferenceIdeal.Read
import proofs.«150614_j1666447311241_1_alg».proof.Proof.PoolSpec
import Idealize.ShloMosaic.Lib.ValueIdx
import Idealize.ShloMosaic.PureOps.Ideal.Laws

/-!
  The reference computes the pooled array: its 0/1 matrix of hits at (b, n, k) compares target word (b, n) with
  source word (b, k); its product sums hit · source row over all k; its count sums the hits over all k from zero;
  its quotient divides the first by the small constant plus the second.
-/

noncomputable section

open scoped BigOperators

namespace Cert.ReferenceIdeal.RefValue

open Cert.ReferenceIdeal Cert.ReferenceIdeal.Read Idealize.ShloMosaic Idealize.ShloMosaic.ValueIdx Cert.PoolSpec

/-- The reference's matrix of hits at (b, n, k). -/
theorem mask_apply (x0 : (⟨S8x2048x1, .i32⟩ : BufTy).Contents (Elt Ideal)) (x1 : (⟨S8x8192x1, .i32⟩ : BufTy).Contents (Elt Ideal))
    (b : Fin 8) (n : Fin 2048) (k : Fin 8192) :
    val_main_v7 (F := Ideal) x0 x1 (ix3 b n k) = hit (x0 (ix3 b n (0 : Fin 1))) (x1 (ix3 b k (0 : Fin 1))) := by
  rw [val_main_v7_apply, val_main_v6_apply, val_main_v4_apply, val_main_v2_apply, val_main_v0_apply,
    val_main_v5_apply, val_main_v3_apply, val_main_v1_apply]
  show FloatOps.uitofp (F := Ideal) .f32 (IntOp.cmpi .eq (x0 _) (x1 _)) = _
  rw [hit_unsigned]
  have hb := b.isLt; have hn := n.isLt; have hk := k.isLt
  congr 2
  · funext a
    apply Fin.ext
    match a with
    | ⟨0, _⟩ => show (b.val * 2048 + n.val) / 2048 = b.val; omega
    | ⟨1, _⟩ => show (b.val * 2048 + n.val) / 1 % 2048 = n.val; omega
    | ⟨2, _⟩ => rfl
  · funext a
    apply Fin.ext
    match a with
    | ⟨0, _⟩ => show (b.val * 8192 + k.val) / 8192 = b.val; omega
    | ⟨1, _⟩ => show (b.val * 8192 + k.val) / 1 % 8192 = k.val; omega
    | ⟨2, _⟩ => rfl

/-- The reference's result is the pooled array of its arguments. -/
theorem result_eq (x0 : (⟨S8x2048x1, .i32⟩ : BufTy).Contents (Elt Ideal)) (x1 : (⟨S8x8192x1, .i32⟩ : BufTy).Contents (Elt Ideal))
    (x2 : (⟨S8x8192x64, .f32⟩ : BufTy).Contents (Elt Ideal)) :
    val_main_v14 (F := Ideal) x0 x1 x2 = pool x0 x1 x2 := by
  funext i
  obtain ⟨b, n, q, rfl⟩ : ∃ (b : Fin 8) (n : Fin 2048) (q : Fin 64), i = ix3 b n q := ⟨i 0, i 1, i 2, eq_ix3 i⟩
  rw [val_main_v14_apply, val_main_v8_apply, val_main_v13_apply, val_main_v12_apply, val_main_v11_apply,
    val_main_cst_0_apply, val_main_v10_apply, val_main_v9_apply, val_main_cst_apply]
  show Ideal.div _ (Ideal.ofBits .f32 0x2EDBE6FF#32 + (Ideal.ofBits .f32 0x00000000#32 + _)) = Ideal.div _ _
  rw [Ideal.ofBits_zero_f32, zero_add]
  unfold total Cert.PoolSpec.count
  refine congrArg₂ Ideal.div ?_ (congrArg (Ideal.ofBits .f32 0x2EDBE6FF#32 + ·) ?_)
  · refine Finset.sum_congr rfl fun k _ => ?_
    rw [show lidx_main_v8 (ix3 b n q) k = ix3 b n k from
        funext fun a => by match a with | ⟨0, _⟩ => rfl | ⟨1, _⟩ => rfl | ⟨2, _⟩ => rfl,
      show ridx_main_v8 (ix3 b n q) k = ix3 b k q from
        funext fun a => by match a with | ⟨0, _⟩ => rfl | ⟨1, _⟩ => rfl | ⟨2, _⟩ => rfl,
      mask_apply]
  · refine Finset.sum_congr rfl fun k _ => ?_
    rw [show idx_main_v9 (idx_main_v10 (idx_main_v13 (ix3 b n q))) k = ix3 b n k from
        funext fun a => by match a with | ⟨0, _⟩ => rfl | ⟨1, _⟩ => rfl | ⟨2, _⟩ => rfl,
      mask_apply]

end Cert.ReferenceIdeal.RefValue

end
-- ==== Proof.lean ====
/-
  Mean pooling of source rows onto target rows by matching index words, over f32[8, 8192, 64] source rows,
  i32[8, 8192, 1] source words and i32[8, 2048, 1] target words.

  Both programs compute, for batch b, target row n and column q,

      ( Σ_k hit(b, n, k) · rows(b, k, q) ) / ( 1e-10 + Σ_k hit(b, n, k) ),      k over all 8192 source rows,

  where hit(b, n, k) is 1 when target word (b, n) equals source word (b, k) and 0 otherwise.

  The reference forms the whole [8, 2048, 8192] matrix of hits, multiplies it with the source rows batch by batch, sums it
  along k from zero, adds the constant and divides.

  The kernel walks a grid of 8 batches by 16 blocks of 512 source rows.  It keeps the numerator [2048, 64] and the
  denominator [2048, 1] in two buffers carried from point to point: both are set to zero at the first block of a batch,
  every block adds the product of its [2048, 512] matrix of hits with its [512, 64] rows to the first and the row sums of
  that matrix to the second, and the last block of the batch writes their quotient.  The hit is a comparison bit widened
  to a word and converted as a signed integer on one side, converted directly as an unsigned integer on the other: both
  are the bit.  Narrowing the product's operands to bf16 changes nothing over the extended reals.

  So the two sides differ only in how the sum over k is grouped: 16 consecutive blocks of 512 terms added one after the
  other onto zero, against one sum of 8192 terms.  Addition of extended reals is commutative and associative, and zero is
  neutral, so the two are equal whatever the rows hold; the finiteness of the rows is not used.

  The kernel's frames and the run of its 128 grid points are generated; what is read here is what each point leaves in
  the two carried buffers (PoolPieces, PoolPayload), their fold over a batch (PoolFold), the blocks as parts of the
  argument arrays and the result array as the pooled array (PoolKernel), and the reference's operations one by one as
  the same function (PoolRef).  PoolSpec states that function.
-/
import proofs.«150614_j1666447311241_1_alg».proof.Defs
import proofs.«150614_j1666447311241_1_alg».proof.Proof.Gen.Kernel
import proofs.«150614_j1666447311241_1_alg».proof.Proof.Gen.Kernel.Frame
import proofs.«150614_j1666447311241_1_alg».proof.Proof.Gen.KernelIdeal
import proofs.«150614_j1666447311241_1_alg».proof.Proof.Gen.KernelIdeal.Frame
import proofs.«150614_j1666447311241_1_alg».proof.Proof.Gen.KernelIdeal.Value
import proofs.«150614_j1666447311241_1_alg».proof.Proof.Gen.ReferenceIdeal
import proofs.«150614_j1666447311241_1_alg».proof.Proof.Gen.ReferenceIdeal.Run
import proofs.«150614_j1666447311241_1_alg».proof.Proof.Gen.ReferenceIdeal.Read
import proofs.«150614_j1666447311241_1_alg».proof.Proof.Gen.Pre_finite_inputs
import proofs.«150614_j1666447311241_1_alg».proof.Proof.PoolSpec
import proofs.«150614_j1666447311241_1_alg».proof.Proof.PoolKernel
import proofs.«150614_j1666447311241_1_alg».proof.Proof.PoolRef
import Idealize.ShloMosaic.Adequacy
import Idealize.ShloMosaic.Init

noncomputable section

namespace Cert.Proof

open Idealize.ShloMosaic Idealize.SL.Sem

/-- The word-level kernel runs to the end and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is a straight line of array operations: it runs to the end and writes no argument. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, the kernel's result array and the reference's both end at the pooled array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.PoolSpec.pool (Cert.KernelIdeal.PoolValue.tgt m c) (Cert.KernelIdeal.PoolValue.src m c)
    (Cert.KernelIdeal.PoolValue.rows m c), Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
